-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S2x640000 : Shape := ⟨2, ![2, 640000]⟩
abbrev S640000x64 : Shape := ⟨2, ![640000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S640000x64 : S_.BroadcastsInDim S640000x64 (![] : Fin 0 → Fin S640000x64.rank)
  reducesTo_S640000x64_S_d0_1 : S640000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S192x128 .f32) (main_arg9 : FVec F S128 .f32) (main_arg10 : FVec F S128x64 .f32) (main_arg11 : FVec F S64 .f32) (main_v33 : IVec S_ 1) : IVec S_ 1 :=
  let main_v34 : FVec F S192x128 .f32 := Host.absf main_arg8
  let main_cst_12 : FVec F S_ .f32 := constant S_ .f32 0x7F800000#32
  let main_v35 : FVec F S192x128 .f32 := broadcastInDim S192x128 ![] bcast_S_S192x128 main_cst_12
  let main_v36 : IVec S192x128 1 := cmpf .olt main_v34 main_v35
  let main_c_13 : IVec S_ 1 := constantI S_ 1 1#1
  let main_v37 : IVec S_ 1 := (fun x v => Host.reduce IntOp.andi x v reducesTo_S192x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x64 .f32) (main_arg7 : FVec F S64 .f32) (main_arg8 : FVec F S192x128 .f32) (main_arg9 : FVec F S128 .f32) (main_arg10 : FVec F S128x64 .f32) (main_arg11 : FVec F S64 .f32) (main_v13 : IVec S_ 1) (main_v16 : IVec S192x128 1) : IVec S_ 1 :=
  let main_c_5 : IVec S_ 1 := constantI S_ 1 1#1
  let main_v17 : IVec S_ 1 := (fun x v => Host.reduce IntOp.andi x v reducesTo_S192x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S20000x64 .f32) (main_arg1 : IVec S2x640000 32) (main_arg2 : FVec F S640000x64 .f32) (main_arg3 : FVec F S20000x64 .f32) (main_arg4 : FVec F S192x128 .f32) (main_arg5 : FVec F S128 .f32) (main_arg6 : FVec F S128x64 .f32) (main_arg7 : FVec F S64 .f32) (main_arg8 : FVec F S192x128 .f32) (main_arg9 : FVec F S128 .f32) (main_arg10 : FVec F S128x64 .f32) (main_arg11 : FVec F S64 .f32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S640000x64 .f32 := Host.absf main_arg2
  let main_cst_0 : FVec F S_ .f32 := constant S_ .f32 0x7F800000#32
  let main_v5 : FVec F S640000x64 .f32 := broadcastInDim S640000x64 ![] bcast_S_S640000x64 main_cst_0
  let main_v6 : IVec S640000x64 1 := cmpf .olt main_v4 main_v5
  let main_c_1 : IVec S_ 1 := constantI S_ 1 1#1
  let main_v7 : IVec S_ 1 := (fun x v => Host.reduce IntOp.andi x v reducesTo_S640000x64_S_d0_1 h_S_) main_v6 main_c_1
  let main_v8 : IVec S_ 1 := andi main_v3 main_v7
  let main_v9 : FVec F S20000x64 .f32 := Host.absf main_arg3
  let main_cst_2 : FVec F S_ .f32 := constant S_ .f32 0x7F800000#32
  let main_v10 : FVec F S20000x64 .f32 := broadcastInDim S20000x64 ![] bcast_S_S20000x64 main_cst_2
  let main_v11 : IVec S20000x64 1 := cmpf .olt main_v9 main_v10
  let main_c_3 : IVec S_ 1 := constantI S_ 1 1#1
  let main_v12 : IVec S_ 1 := (fun x v => Host.reduce IntOp.andi x v reducesTo_S20000x64_S_d0_1 h_S_) main_v11 main_c_3
  let main_v13 : IVec S_ 1 := andi main_v8 main_v12
  let main_v14 : FVec F S192x128 .f32 := Host.absf main_arg4
  let main_cst_4 : FVec F S_ .f32 := constant S_ .f32 0x7F800000#32
  let main_v15 : FVec F S192x128 .f32 := broadcastInDim S192x128 ![] bcast_S_S192x128 main_cst_4
  let main_v16 : IVec S192x128 1 := cmpf .olt main_v14 main_v15
  fn_part1 (F := F) main_arg5 main_arg6 main_arg7 main_arg8 main_arg9 main_arg10 main_arg11 main_v13 main_v16
-- ==== Kernel.lean ====
abbrev S20000x64 : Shape := ⟨2, ![20000, 64]⟩
abbrev S2x640000 : Shape := ⟨2, ![2, 640000]⟩
abbrev S640000x64 : Shape := ⟨2, ![640000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S8000x64 : Shape := ⟨2, ![8000, 64]⟩
abbrev S8000x192 : Shape := ⟨2, ![8000, 192]⟩
abbrev S8000x128 : Shape := ⟨2, ![8000, 128]⟩
abbrev S1x128 : Shape := ⟨2, ![1, 128]⟩
abbrev S1x64 : Shape := ⟨2, ![1, 64]⟩
abbrev S4000x64 : Shape := ⟨2, ![4000, 64]⟩
abbrev S4000x192 : Shape := ⟨2, ![4000, 192]⟩
abbrev S4000x128 : Shape := ⟨2, ![4000, 128]⟩

abbrev nBuf : Space → Nat
  | .hbm => 43
  | .vmem => 24
  | .smem => 0
  | _ => 0

abbrev bufTy : (tb : Table) → Fin (tcTables nBuf tb) → BufTy
  | .hbm, ⟨0, _⟩ => ⟨S20000x64, .f32⟩
  | .hbm, ⟨1, _⟩ => ⟨S2x640000, .i32⟩
  | .hbm, ⟨2, _⟩ => ⟨S640000x64, .f32⟩
  | .hbm, ⟨3, _⟩ => ⟨S20000x64, .f32⟩
  | .hbm, ⟨4, _⟩ => ⟨S192x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S192x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S20000x64, .bf16⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x64, .bf16⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x64, .bf16⟩
  | .hbm, ⟨35, _⟩ => ⟨S640000x64, .f32⟩
  | .hbm, ⟨36, _⟩ => ⟨S_, .f32⟩
  | .hbm, ⟨37, _⟩ => ⟨S20000x64, .f32⟩
  | .hbm, ⟨38, _⟩ => ⟨S640000x1, .i32⟩
  | .hbm, ⟨39, _⟩ => ⟨S20000x64, .f32⟩
  | .hbm, ⟨40, _⟩ => ⟨S20000x64, .bf16⟩
  | .hbm, ⟨41, _⟩ => ⟨S20000x64, .bf16⟩
  | .hbm, ⟨42, _⟩ => ⟨S20000x64, .f32⟩
  | .local _ .vmem, ⟨0, _⟩ => ⟨S8000x64, .bf16⟩
  | .local _ .vmem, ⟨1, _⟩ => ⟨S8000x64, .bf16⟩
  | .local _ .vmem, ⟨2, _⟩ => ⟨S8000x64, .bf16⟩
  | .local _ .vmem, ⟨3, _⟩ => ⟨S8000x64, .bf16⟩
  | .local _ .vmem, ⟨4, _⟩ => ⟨S8000x64, .f32⟩
  | .local _ .vmem, ⟨5, _⟩ => ⟨S8000x64, .f32⟩
  | .local _ .vmem, ⟨6, _⟩ => ⟨S192x128, .f32⟩
  | .local _ .vmem, ⟨7, _⟩ => ⟨S128, .f32⟩
  | .local _ .vmem, ⟨8, _⟩ => ⟨S128x64, .f32⟩
  | .local _ .vmem, ⟨9, _⟩ => ⟨S64, .f32⟩
  | .local _ .vmem, ⟨10, _⟩ => ⟨S8000x64, .f32⟩
  | .local _ .vmem, ⟨11, _⟩ => ⟨S8000x64, .f32⟩
  | .local _ .vmem, ⟨12, _⟩ => ⟨S4000x64, .bf16⟩
  | .local _ .vmem, ⟨13, _⟩ => ⟨S4000x64, .bf16⟩
  | .local _ .vmem, ⟨14, _⟩ => ⟨S4000x64, .bf16⟩
  | .local _ .vmem, ⟨15, _⟩ => ⟨S4000x64, .bf16⟩
  | .local _ .vmem, ⟨16, _⟩ => ⟨S4000x64, .bf16⟩
  | .local _ .vmem, ⟨17, _⟩ => ⟨S4000x64, .bf16⟩
  | .local _ .vmem, ⟨18, _⟩ => ⟨S192x128, .f32⟩
  | .local _ .vmem, ⟨19, _⟩ => ⟨S128, .f32⟩
  | .local _ .vmem, ⟨20, _⟩ => ⟨S128x64, .f32⟩
  | .local _ .vmem, ⟨21, _⟩ => ⟨S64, .f32⟩
  | .local _ .vmem, ⟨22, _⟩ => ⟨S4000x64, .f32⟩
  | .local _ .vmem, ⟨23, _⟩ => ⟨S4000x64, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S192x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  concatenates_S8000x64_S8000x64_S8000x64_S8000x192_d1 : Shape.Concatenates [S8000x64, S8000x64, S8000x64] S8000x192 1
  inb_S192x128_S192x128_0_0 : ∀ a, (![0, 0] : Fin 2 → Nat) a + S192x128.size a ≤ S192x128.size a
  h_S192x128 : 0 < S192x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  bcast_S_S20000x64 : S_.BroadcastsInDim S20000x64 (![] : Fin 0 → Fin S20000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  concatenates_S4000x64_S4000x64_S4000x64_S4000x192_d1 : Shape.Concatenates [S4000x64, S4000x64, S4000x64] S4000x192 1
  broadcasts_S1x128_S4000x128 : S1x128.Broadcasts S4000x128
  broadcasts_S1x64_S4000x64 : S1x64.Broadcasts S4000x64
  gather_S20000x64_S640000x1_S640000x64_1_0_n_n_0_1_164_wf : GatherDims.WF S20000x64 S640000x1 S640000x64 [1] [0] [] [0] [] 1 ![1, 64]
  dot_S8000x192_S192x128_S8000x128_1_0_0_1_n_n_wf : DotDims.WF S8000x192 S192x128 S8000x128 [1] [0] [0] [1] [] []
  dot_S8000x128_S128x64_S8000x64_1_0_0_1_n_n_wf : DotDims.WF S8000x128 S128x64 S8000x64 [1] [0] [0] [1] [] []
  scatter_S20000x64_S640000x1_S640000x64_1_0_0_1_wf : ScatterDims.WF S20000x64 S640000x1 S640000x64 [1] [0] [0] 1
  dot_S4000x192_S192x128_S4000x128_1_0_0_1_n_n_wf : DotDims.WF S4000x192 S192x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S640000x64.size a
  hwx0_0 : ∀ i : grid0.Coords, EltTy.bits .bf16 = 32 ∨ (Rect.block (s := S640000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S640000x64.size a
  hwx0_1 : ∀ i : grid0.Coords, EltTy.bits .bf16 = 32 ∨ (Rect.block (s := S640000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S640000x64.size a
  hwx0_2 : ∀ i : grid0.Coords, EltTy.bits .f32 = 32 ∨ (Rect.block (s := S640000x64) S8000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x128.size a ≤ S192x128.size a
  hwx0_3 : ∀ i : grid0.Coords, EltTy.bits .f32 = 32 ∨ (Rect.block (s := S192x128) S192x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S640000x64.size a
  hwx0_7 : ∀ i : grid0.Coords, EltTy.bits .f32 = 32 ∨ (Rect.block (s := S640000x64) S8000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S20000x64.size a
  hwx1_0 : ∀ i : grid1.Coords, EltTy.bits .bf16 = 32 ∨ (Rect.block (s := S20000x64) S4000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S20000x64.size a
  hwx1_1 : ∀ i : grid1.Coords, EltTy.bits .bf16 = 32 ∨ (Rect.block (s := S20000x64) S4000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S20000x64.size a
  hwx1_2 : ∀ i : grid1.Coords, EltTy.bits .bf16 = 32 ∨ (Rect.block (s := S20000x64) S4000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S192x128.size a ≤ S192x128.size a
  hwx1_3 : ∀ i : grid1.Coords, EltTy.bits .f32 = 32 ∨ (Rect.block (s := S192x128) S192x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S20000x64.size a
  hwx1_7 : ∀ i : grid1.Coords, EltTy.bits .f32 = 32 ∨ (Rect.block (s := S20000x64) S4000x64.size (cc1_transform_7 i) (hinb1_7 i)).WholeWords (EltTy.packing .f32)

variable [Facts₀]

def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def dot_S8000x192_S192x128_S8000x128_1_0_0_1_n_n : DotDims S8000x192 S192x128 S8000x128 where
  lhsContracting := [1]
  rhsContracting := [0]
  lhsNonContracting := [0]
  rhsNonContracting := [1]
  lhsBatch := []
  rhsBatch := []
  wf := dot_S8000x192_S192x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S20000x64_S640000x1_S640000x64_1_0_0_1 : ScatterDims S20000x64 S640000x1 S640000x64 where
  updateWindowDims := [1]
  insertedWindowDims := [0]
  scatterDimsToOperandDims := [0]
  indexVectorDim := 1
  wf := scatter_S20000x64_S640000x1_S640000x64_1_0_0_1_wf
def dot_S4000x192_S192x128_S4000x128_1_0_0_1_n_n : DotDims S4000x192 S192x128 S4000x128 where
  lhsContracting := [1]
  rhsContracting := [0]
  lhsNonContracting := [0]
  rhsNonContracting := [1]
  lhsBatch := []
  rhsBatch := []
  wf := dot_S4000x192_S192x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v11) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S8000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S192x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S4000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S20000x64 : Shape := ⟨2, ![20000, 64]⟩
abbrev S2x640000 : Shape := ⟨2, ![2, 640000]⟩
abbrev S640000x64 : Shape := ⟨2, ![640000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x192 : Shape := ⟨2, ![640000, 192]⟩
abbrev S640000x128 : Shape := ⟨2, ![640000, 128]⟩
abbrev S1x128 : Shape := ⟨2, ![1, 128]⟩
abbrev S1x64 : Shape := ⟨2, ![1, 64]⟩
abbrev S20000x192 : Shape := ⟨2, ![20000, 192]⟩
abbrev S20000x128 : Shape := ⟨2, ![20000, 128]⟩

abbrev nBuf : Space → Nat
  | .hbm => 62
  | .vmem => 0
  | .smem => 0
  | _ => 0

abbrev bufTy : (tb : Table) → Fin (tcTables nBuf tb) → BufTy
  | .hbm, ⟨0, _⟩ => ⟨S20000x64, .f32⟩
  | .hbm, ⟨1, _⟩ => ⟨S2x640000, .i32⟩
  | .hbm, ⟨2, _⟩ => ⟨S640000x64, .f32⟩
  | .hbm, ⟨3, _⟩ => ⟨S20000x64, .f32⟩
  | .hbm, ⟨4, _⟩ => ⟨S192x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S192x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x64, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x64, .f32⟩
  | .hbm, ⟨34, _⟩ => ⟨S640000x192, .f32⟩
  | .hbm, ⟨35, _⟩ => ⟨S640000x128, .f32⟩
  | .hbm, ⟨36, _⟩ => ⟨S1x128, .f32⟩
  | .hbm, ⟨37, _⟩ => ⟨S640000x128, .f32⟩
  | .hbm, ⟨38, _⟩ => ⟨S640000x128, .f32⟩
  | .hbm, ⟨39, _⟩ => ⟨S_, .f32⟩
  | .hbm, ⟨40, _⟩ => ⟨S640000x128, .f32⟩
  | .hbm, ⟨41, _⟩ => ⟨S640000x128, .f32⟩
  | .hbm, ⟨42, _⟩ => ⟨S640000x64, .f32⟩
  | .hbm, ⟨43, _⟩ => ⟨S1x64, .f32⟩
  | .hbm, ⟨44, _⟩ => ⟨S640000x64, .f32⟩
  | .hbm, ⟨45, _⟩ => ⟨S640000x64, .f32⟩
  | .hbm, ⟨46, _⟩ => ⟨S_, .f32⟩
  | .hbm, ⟨47, _⟩ => ⟨S20000x64, .f32⟩
  | .hbm, ⟨48, _⟩ => ⟨S640000x1, .i32⟩
  | .hbm, ⟨49, _⟩ => ⟨S20000x64, .f32⟩
  | .hbm, ⟨50, _⟩ => ⟨S20000x192, .f32⟩
  | .hbm, ⟨51, _⟩ => ⟨S20000x128, .f32⟩
  | .hbm, ⟨52, _⟩ => ⟨S1x128, .f32⟩
  | .hbm, ⟨53, _⟩ => ⟨S20000x128, .f32⟩
  | .hbm, ⟨54, _⟩ => ⟨S20000x128, .f32⟩
  | .hbm, ⟨55, _⟩ => ⟨S_, .f32⟩
  | .hbm, ⟨56, _⟩ => ⟨S20000x128, .f32⟩
  | .hbm, ⟨57, _⟩ => ⟨S20000x128, .f32⟩
  | .hbm, ⟨58, _⟩ => ⟨S20000x64, .f32⟩
  | .hbm, ⟨59, _⟩ => ⟨S1x64, .f32⟩
  | .hbm, ⟨60, _⟩ => ⟨S20000x64, .f32⟩
  | .hbm, ⟨61, _⟩ => ⟨S20000x64, .f32⟩
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x64_S640000x64_S640000x64_S640000x192_d1 : Shape.Concatenates [S640000x64, S640000x64, S640000x64] S640000x192 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S64_S1x64_1 : S64.BroadcastsInDim S1x64 (![1] : Fin 1 → Fin S1x64.rank)
  bcast_S1x64_S640000x64_0_1 : S1x64.BroadcastsInDim S640000x64 (![0, 1] : Fin 2 → Fin S640000x64.rank)
  bcast_S_S20000x64 : S_.BroadcastsInDim S20000x64 (![] : Fin 0 → Fin S20000x64.rank)
  concatenates_S20000x64_S20000x64_S20000x64_S20000x192_d1 : Shape.Concatenates [S20000x64, S20000x64, S20000x64] S20000x192 1
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S1x64_S20000x64_0_1 : S1x64.BroadcastsInDim S20000x64 (![0, 1] : Fin 2 → Fin S20000x64.rank)
  gather_S20000x64_S640000x1_S640000x64_1_0_n_n_0_1_164_wf : GatherDims.WF S20000x64 S640000x1 S640000x64 [1] [0] [] [0] [] 1 ![1, 64]
  dot_S640000x192_S192x128_S640000x128_1_0_0_1_n_n_wf : DotDims.WF S640000x192 S192x128 S640000x128 [1] [0] [0] [1] [] []
  dot_S640000x128_S128x64_S640000x64_1_0_0_1_n_n_wf : DotDims.WF S640000x128 S128x64 S640000x64 [1] [0] [0] [1] [] []
  scatter_S20000x64_S640000x1_S640000x64_1_0_0_1_wf : ScatterDims.WF S20000x64 S640000x1 S640000x64 [1] [0] [0] 1
  dot_S20000x192_S192x128_S20000x128_1_0_0_1_n_n_wf : DotDims.WF S20000x192 S192x128 S20000x128 [1] [0] [0] [1] [] []
  dot_S20000x128_S128x64_S20000x64_1_0_0_1_n_n_wf : DotDims.WF S20000x128 S128x64 S20000x64 [1] [0] [0] [1] [] []

variable [Facts₀]

def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def dot_S640000x192_S192x128_S640000x128_1_0_0_1_n_n : DotDims S640000x192 S192x128 S640000x128 where
  lhsContracting := [1]
  rhsContracting := [0]
  lhsNonContracting := [0]
  rhsNonContracting := [1]
  lhsBatch := []
  rhsBatch := []
  wf := dot_S640000x192_S192x128_S640000x128_1_0_0_1_n_n_wf
def dot_S640000x128_S128x64_S640000x64_1_0_0_1_n_n : DotDims S640000x128 S128x64 S640000x64 where
  lhsContracting := [1]
  rhsContracting := [0]
  lhsNonContracting := [0]
  rhsNonContracting := [1]
  lhsBatch := []
  rhsBatch := []
  wf := dot_S640000x128_S128x64_S640000x64_1_0_0_1_n_n_wf
def scatter_S20000x64_S640000x1_S640000x64_1_0_0_1 : ScatterDims S20000x64 S640000x1 S640000x64 where
  updateWindowDims := [1]
  insertedWindowDims := [0]
  scatterDimsToOperandDims := [0]
  indexVectorDim := 1
  wf := scatter_S20000x64_S640000x1_S640000x64_1_0_0_1_wf
def dot_S20000x192_S192x128_S20000x128_1_0_0_1_n_n : DotDims S20000x192 S192x128 S20000x128 where
  lhsContracting := [1]
  rhsContracting := [0]
  lhsNonContracting := [0]
  rhsNonContracting := [1]
  lhsBatch := []
  rhsBatch := []
  wf := dot_S20000x192_S192x128_S20000x128_1_0_0_1_n_n_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.LibMlpRows.lean ====
/-
  A perceptron of two dense layers, applied row by row to three arrays joined along their columns.

  Both programs compute, for every row `n`, the row `(a n ‖ b n ‖ c n)` of width `3·A`, then
  `W₂ᵀ · max(W₁ᵀ · row + b₁, 0) + b₂`.  The kernel spells the products as matrix products of narrowed operands into a zero
  accumulator and the biases as one-row casts broadcast down the rows; the host spells them as `dot_general`s and
  two-step broadcasts.  At the ideal values a change of float format is the identity and both products are the same finite
  sum, so each spelling, read at `(n, q)`, is the row function `mlpRow` below at `q`.
  Everything is generic in the number of rows, the width of the joined arrays and the two layers' widths.
-/
import Idealize.ShloMosaic.Lib.ValueIdx
import Idealize.ShloMosaic.Lib.ValueLayout
import Idealize.ShloMosaic.Lib.Pipeline.Value
import Idealize.ShloMosaic.PureOps.Ideal.Laws
import proofs.«106031_j7103875907705_1_alg».proof.Proof.LibRowOps

noncomputable section

open scoped BigOperators

namespace MessagePassing

open Idealize.ShloMosaic Idealize.ShloMosaic.ValueIdx RowOps

/-- Two dense layers with the positive part between them, on one row. -/
def mlpRow {K H D : ℕ} (W1 : (⟨2, ![K, H]⟩ : Shape).Idx → EReal) (b1 : (⟨1, ![H]⟩ : Shape).Idx → EReal)
    (W2 : (⟨2, ![H, D]⟩ : Shape).Idx → EReal) (b2 : (⟨1, ![D]⟩ : Shape).Idx → EReal) (u : Fin K → EReal) : Fin D → EReal :=
  dense W2 b2 (relu (dense W1 b1 u))

/-- Row by row: the rows of three arrays laid end to end, through the two layers. -/
def mlpRows {R A K H D : ℕ} (a b c : (⟨2, ![R, A]⟩ : Shape).Idx → EReal)
    (W1 : (⟨2, ![K, H]⟩ : Shape).Idx → EReal) (b1 : (⟨1, ![H]⟩ : Shape).Idx → EReal)
    (W2 : (⟨2, ![H, D]⟩ : Shape).Idx → EReal) (b2 : (⟨1, ![D]⟩ : Shape).Idx → EReal) : (⟨2, ![R, D]⟩ : Shape).Idx → EReal :=
  fun i => mlpRow W1 b1 W2 b2
    (cat3 K (fun k => a (ix2 (i 0) k)) (fun k => b (ix2 (i 0) k)) (fun k => c (ix2 (i 0) k))) (i 1)

theorem mlpRows_apply {R A K H D : ℕ} (a b c : (⟨2, ![R, A]⟩ : Shape).Idx → EReal)
    (W1 : (⟨2, ![K, H]⟩ : Shape).Idx → EReal) (b1 : (⟨1, ![H]⟩ : Shape).Idx → EReal)
    (W2 : (⟨2, ![H, D]⟩ : Shape).Idx → EReal) (b2 : (⟨1, ![D]⟩ : Shape).Idx → EReal) (n : Fin R) (q : Fin D) :
    mlpRows a b c W1 b1 W2 b2 (ix2 n q)
      = mlpRow W1 b1 W2 b2 (cat3 K (fun k => a (ix2 n k)) (fun k => b (ix2 n k)) (fun k => c (ix2 n k))) q := rfl

section Spellings
variable {R A K H D : ℕ}

/-- The host's spelling of the whole network is `mlpRows` of its three joined operands. -/
theorem mlp_host_eq (d1 : DotDims ⟨2, ![R, K]⟩ ⟨2, ![K, H]⟩ ⟨2, ![R, H]⟩) (hd1 : d1 = DotDims.plain R K H)
    (d2 : DotDims ⟨2, ![R, H]⟩ ⟨2, ![H, D]⟩ ⟨2, ![R, D]⟩) (hd2 : d2 = DotDims.plain R H D)
    (y1 y2 y3 : FVec Ideal ⟨2, ![R, A]⟩ .f32) (W1 : FVec Ideal ⟨2, ![K, H]⟩ .f32) (b1 : FVec Ideal ⟨1, ![H]⟩ .f32)
    (W2 : FVec Ideal ⟨2, ![H, D]⟩ .f32) (b2 : FVec Ideal ⟨1, ![D]⟩ .f32)
    (hc : Shape.Concatenates [(⟨2, ![R, A]⟩ : Shape), ⟨2, ![R, A]⟩, ⟨2, ![R, A]⟩] ⟨2, ![R, K]⟩ 1) (hK : K = A + A + A)
    (h1 : (⟨1, ![H]⟩ : Shape).BroadcastsInDim ⟨2, ![1, H]⟩ ![1]) (h2 : (⟨2, ![1, H]⟩ : Shape).BroadcastsInDim ⟨2, ![R, H]⟩ ![0, 1])
    (h0 : (⟨0, ![]⟩ : Shape).BroadcastsInDim ⟨2, ![R, H]⟩ ![])
    (h3 : (⟨1, ![D]⟩ : Shape).BroadcastsInDim ⟨2, ![1, D]⟩ ![1]) (h4 : (⟨2, ![1, D]⟩ : Shape).BroadcastsInDim ⟨2, ![R, D]⟩ ![0, 1]) :
    addf (Host.dotGeneral d2 none
        (maximumf (addf (Host.dotGeneral d1 none
            (concatenate ⟨2, ![R, K]⟩ 1 [⟨⟨2, ![R, A]⟩, y1⟩, ⟨⟨2, ![R, A]⟩, y2⟩, ⟨⟨2, ![R, A]⟩, y3⟩] hc) W1)
            (broadcastInDim ⟨2, ![R, H]⟩ ![0, 1] h2 (broadcastInDim ⟨2, ![1, H]⟩ ![1] h1 b1)))
          (broadcastInDim ⟨2, ![R, H]⟩ ![] h0 (constant (F := Ideal) ⟨0, ![]⟩ .f32 0x00000000#32))) W2)
        (broadcastInDim ⟨2, ![R, D]⟩ ![0, 1] h4 (broadcastInDim ⟨2, ![1, D]⟩ ![1] h3 b2))
      = mlpRows y1 y2 y3 W1 b1 W2 b2 := by
  funext i
  obtain ⟨n, q, rfl⟩ : ∃ (n : Fin R) (q : Fin D), i = ix2 n q := ⟨i 0, i 1, eq_ix2 i⟩
  rw [dense_host_apply' d2 hd2, mlpRows_apply]
  unfold mlpRow
  refine congrArg (fun u => dense W2 b2 u q) (funext fun k => ?_)
  rw [relu_host_apply]
  refine congrArg (fun u => relu u k) (funext fun j => ?_)
  rw [dense_host_apply' d1 hd1]
  refine congrArg (fun u => dense W1 b1 u j) (funext fun l => ?_)
  exact cat3_apply y1 y2 y3 hc hK n l

/-- The kernel's spelling of the two layers over an already joined operand, at `(n, q)`. -/
theorem mlp_kernel_apply (d1 : DotDims ⟨2, ![R, K]⟩ ⟨2, ![K, H]⟩ ⟨2, ![R, H]⟩) (hd1 : d1 = DotDims.plain R K H)
    (d2 : DotDims ⟨2, ![R, H]⟩ ⟨2, ![H, D]⟩ ⟨2, ![R, D]⟩) (hd2 : d2 = DotDims.plain R H D)
    (u : FVec Ideal ⟨2, ![R, K]⟩ .bf16) (W1 : FVec Ideal ⟨2, ![K, H]⟩ .f32) (b1 : FVec Ideal ⟨1, ![H]⟩ .f32)
    (W2 : FVec Ideal ⟨2, ![H, D]⟩ .f32) (b2 : FVec Ideal ⟨1, ![D]⟩ .f32)
    (hW1 hy hW2 : FTy.bf16.bits < FTy.f32.bits)
    (hsc1 : (⟨1, ![H]⟩ : Shape).ShapeCasts ⟨2, ![1, H]⟩) (hbc1 : (⟨2, ![1, H]⟩ : Shape).Broadcasts ⟨2, ![R, H]⟩)
    (hsc2 : (⟨1, ![D]⟩ : Shape).ShapeCasts ⟨2, ![1, D]⟩) (hbc2 : (⟨2, ![1, D]⟩ : Shape).Broadcasts ⟨2, ![R, D]⟩)
    (n : Fin R) (q : Fin D) :
    addf (matmul d2 none
        (truncf .bf16 (maximumf (addf (matmul d1 none u (truncf .bf16 W1 hW1) (constant ⟨2, ![R, H]⟩ .f32 0x00000000#32))
            (broadcastTo ⟨2, ![R, H]⟩ (shapeCast ⟨2, ![1, H]⟩ b1 hsc1) hbc1))
          (broadcast ⟨2, ![R, H]⟩ (Scalar.ofBits (F := Ideal) .f32 0x00000000#32))) hy)
        (truncf .bf16 W2 hW2) (constant ⟨2, ![R, D]⟩ .f32 0x00000000#32))
      (broadcastTo ⟨2, ![R, D]⟩ (shapeCast ⟨2, ![1, D]⟩ b2 hsc2) hbc2) (ix2 n q)
      = mlpRow W1 b1 W2 b2 (fun k => u (ix2 n k)) q := by
  rw [dense_kernel_apply d2 hd2]
  unfold mlpRow
  refine congrArg (fun v => dense W2 b2 v q) (funext fun k => ?_)
  rw [relu_kernel_apply]
  refine congrArg (fun v => relu v k) (funext fun j => ?_)
  show matmul d1 none u (truncf .bf16 W1 hW1) (constant ⟨2, ![R, H]⟩ .f32 0x00000000#32) (ix2 n j)
      + broadcastTo ⟨2, ![R, H]⟩ (shapeCast ⟨2, ![1, H]⟩ b1 hsc1) hbc1 (ix2 n j) = _
  rw [matmul_plain_apply d1 hd1, bias_cast_apply]
  rfl

end Spellings

end MessagePassing

end
-- ==== Proof.EdgeCall.lean ====
/-
  The first call: the edge perceptron over the grid of 80 row blocks.

  Point `t` of the grid loads rows `8000·t … 8000·t + 7999` of the two gathered arrays and of the edge attributes,
  the whole weight and bias arrays, and stores the perceptron's value on those rows into the same rows of the result.
  The blocks tile the result, so after the call the result array is the perceptron applied row by row to the
  arrays the call found.
-/
import proofs.«106031_j7103875907705_1_alg».proof.Proof.Gen.KernelIdeal.Frame
import proofs.«106031_j7103875907705_1_alg».proof.Proof.LibMlpRows

set_option maxRecDepth 16384

noncomputable section

namespace Cert.KernelIdeal.EdgeCall

open Cert.KernelIdeal Cert.KernelIdeal.Gen
open Idealize.ShloMosaic Idealize.ShloMosaic.TcCoe Idealize.SL.Sem Idealize.ShloMosaic.ValueIdx
open Idealize.ShloMosaic.Pipeline (Dat)
open RowOps MessagePassing

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The value the body stores, at `(n, q)` of the block: the perceptron on row `n` of the three loaded blocks. -/
theorem payload_apply (x0 x1 : Vec Ideal S8000x64 .bf16) (x2 : Vec Ideal S8000x64 .f32) (x3 : Vec Ideal S192x128 .f32)
    (x4 : Vec Ideal S128 .f32) (x5 : Vec Ideal S128x64 .f32) (x6 : Vec Ideal S64 .f32) (n : Fin 8000) (q : Fin 64) :
    k0_pay1 x0 x1 x2 x3 x4 x5 x6 (ix2 n q)
      = mlpRow x3 x4 x5 x6 (cat3 192 (fun k => x0 (ix2 n k)) (fun k => x1 (ix2 n k)) (fun k => x2 (ix2 n k))) q := by
  unfold k0_pay1
  refine (mlp_kernel_apply dot_S8000x192_S192x128_S8000x128_1_0_0_1_n_n rfl dot_S8000x128_S128x64_S8000x64_1_0_0_1_n_n rfl
    _ x3 x4 x5 x6 _ _ _ _ _ _ _ n q).trans ?_
  refine congrArg (fun u => mlpRow x3 x4 x5 x6 u q) (funext fun k => ?_)
  refine (cat3_apply _ _ _ concatenates_S8000x64_S8000x64_S8000x64_S8000x192_d1 rfl n k).trans ?_
  rw [shapeCast_self, shapeCast_self]
  rfl

/-- The same at any index of the block. -/
theorem payload_at (x0 x1 : Vec Ideal S8000x64 .bf16) (x2 : Vec Ideal S8000x64 .f32) (x3 : Vec Ideal S192x128 .f32)
    (x4 : Vec Ideal S128 .f32) (x5 : Vec Ideal S128x64 .f32) (x6 : Vec Ideal S64 .f32) (j : S8000x64.Idx) :
    k0_pay1 x0 x1 x2 x3 x4 x5 x6 j
      = mlpRow x3 x4 x5 x6 (cat3 192 (fun k => x0 (ix2 (j 0) k)) (fun k => x1 (ix2 (j 0) k)) (fun k => x2 (ix2 (j 0) k))) (j 1) := by
  obtain ⟨n, q, rfl⟩ : ∃ (n : Fin 8000) (q : Fin 64), j = ix2 n q := ⟨j 0, j 1, eq_ix2 j⟩
  exact payload_apply x0 x1 x2 x3 x4 x5 x6 n q

/-- The result array the call leaves, as a function of the arrays it finds: row by row the perceptron of the two
    gathered arrays and the edge attributes. -/
abbrev edgeOf (c : Dev nD) : S640000x64.Idx → EReal :=
  mlpRows (K := 192) (V c main_v11) (V c main_v18) (V c main_arg2) (V c main_arg4) (V c main_arg5) (V c main_arg6) (V c main_arg7)

/-- The printed index maps over the grid: a row window's block index is the point, a whole window's is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row `n` of point `t`'s block is row `8000·t + n` of the array. -/
def rowAt (t : Fin cfg0.N) (n : Fin 8000) : Fin 640000 :=
  ⟨t.val * 8000 + n.val, by have h : t.val < 80 := t.isLt; have := n.isLt; omega⟩

theorem emb_out (t : Fin cfg0.N) (n : Fin 8000) (q : Fin 64) :
    ((cfg0.win 7).blk t).view.emb (ix2 n q) = ix2 (rowAt t n) q := by
  obtain ⟨-, -, -, -, -, -, -, -, -, -, -, -, e0, e1⟩ := idx_facts t
  funext a; apply Fin.ext
  match a with
  | ⟨0, _⟩ => show win0_7.index t (0 : Fin 2) * 8000 + 1 * n.val = t.val * 8000 + n.val; omega
  | ⟨1, _⟩ => show win0_7.index t (1 : Fin 2) * 64 + 1 * q.val = q.val; omega

theorem row0 (c : Dev nD) (t : Fin cfg0.N) (n : Fin 8000) (k : Fin 64) :
    iblk0 V c 0 t (ix2 n k) = V c main_v11 (ix2 (rowAt t n) k) := by
  obtain ⟨e0, e1, -⟩ := idx_facts t
  show V c main_v11 (((cfg0.win 0).blk t).view.emb (ix2 n k)) = _
  refine congrArg (V c main_v11) (funext fun a => Fin.ext ?_)
  match a with
  | ⟨0, _⟩ => show win0_0.index t (0 : Fin 2) * 8000 + 1 * n.val = t.val * 8000 + n.val; omega
  | ⟨1, _⟩ => show win0_0.index t (1 : Fin 2) * 64 + 1 * k.val = k.val; omega

theorem row1 (c : Dev nD) (t : Fin cfg0.N) (n : Fin 8000) (k : Fin 64) :
    iblk0 V c 1 t (ix2 n k) = V c main_v18 (ix2 (rowAt t n) k) := by
  obtain ⟨-, -, e0, e1, -⟩ := idx_facts t
  show V c main_v18 (((cfg0.win 1).blk t).view.emb (ix2 n k)) = _
  refine congrArg (V c main_v18) (funext fun a => Fin.ext ?_)
  match a with
  | ⟨0, _⟩ => show win0_1.index t (0 : Fin 2) * 8000 + 1 * n.val = t.val * 8000 + n.val; omega
  | ⟨1, _⟩ => show win0_1.index t (1 : Fin 2) * 64 + 1 * k.val = k.val; omega

theorem row2 (c : Dev nD) (t : Fin cfg0.N) (n : Fin 8000) (k : Fin 64) :
    iblk0 V c 2 t (ix2 n k) = V c main_arg2 (ix2 (rowAt t n) k) := by
  obtain ⟨-, -, -, -, e0, e1, -⟩ := idx_facts t
  show V c main_arg2 (((cfg0.win 2).blk t).view.emb (ix2 n k)) = _
  refine congrArg (V c main_arg2) (funext fun a => Fin.ext ?_)
  match a with
  | ⟨0, _⟩ => show win0_2.index t (0 : Fin 2) * 8000 + 1 * n.val = t.val * 8000 + n.val; omega
  | ⟨1, _⟩ => show win0_2.index t (1 : Fin 2) * 64 + 1 * k.val = k.val; omega

/-- The weight and bias windows are whole arrays at every point. -/
theorem whole3 (c : Dev nD) (t : Fin cfg0.N) : iblk0 V c 3 t = V c main_arg4 := by
  obtain ⟨-, -, -, -, -, -, e0, e1, -⟩ := idx_facts t
  funext y
  show V c main_arg4 (((cfg0.win 3).blk t).view.emb y) = V c main_arg4 y
  refine congrArg (V c main_arg4) (funext fun a => Fin.ext ?_)
  match a with
  | ⟨0, _⟩ => show win0_3.index t (0 : Fin 2) * 192 + 1 * (y 0).val = (y 0).val; omega
  | ⟨1, _⟩ => show win0_3.index t (1 : Fin 2) * 128 + 1 * (y 1).val = (y 1).val; omega

theorem whole4 (c : Dev nD) (t : Fin cfg0.N) : iblk0 V c 4 t = V c main_arg5 := by
  obtain ⟨-, -, -, -, -, -, -, -, e0, -⟩ := idx_facts t
  funext y
  show V c main_arg5 (((cfg0.win 4).blk t).view.emb y) = V c main_arg5 y
  refine congrArg (V c main_arg5) (funext fun a => Fin.ext ?_)
  match a with
  | ⟨0, _⟩ => show win0_4.index t (0 : Fin 1) * 128 + 1 * (y 0).val = (y 0).val; omega

theorem whole5 (c : Dev nD) (t : Fin cfg0.N) : iblk0 V c 5 t = V c main_arg6 := by
  obtain ⟨-, -, -, -, -, -, -, -, -, e0, e1, -⟩ := idx_facts t
  funext y
  show V c main_arg6 (((cfg0.win 5).blk t).view.emb y) = V c main_arg6 y
  refine congrArg (V c main_arg6) (funext fun a => Fin.ext ?_)
  match a with
  | ⟨0, _⟩ => show win0_5.index t (0 : Fin 2) * 128 + 1 * (y 0).val = (y 0).val; omega
  | ⟨1, _⟩ => show win0_5.index t (1 : Fin 2) * 64 + 1 * (y 1).val = (y 1).val; omega

theorem whole6 (c : Dev nD) (t : Fin cfg0.N) : iblk0 V c 6 t = V c main_arg7 := by
  obtain ⟨-, -, -, -, -, -, -, -, -, -, -, e0, -⟩ := idx_facts t
  funext y
  show V c main_arg7 (((cfg0.win 6).blk t).view.emb y) = V c main_arg7 y
  refine congrArg (V c main_arg7) (funext fun a => Fin.ext ?_)
  match a with
  | ⟨0, _⟩ => show win0_6.index t (0 : Fin 1) * 64 + 1 * (y 0).val = (y 0).val; omega

/-- What point `t` writes back is block `t` of `edgeOf`. -/
theorem flushed_eq (c : Dev nD) (t : Fin cfg0.N) :
    (dat0 V c).flushed 7 t = ((cfg0.win 7).blk t).view.read (Elt Ideal) (edgeOf V c) := by
  show (cfg0.win 7).cut (grid0.coords t) ((dat0 V c).after 7 t) = _
  rw [after0_7]
  unfold out0_7
  rw [View.canon_unit_zero zero2]
  simp only [View.ld_unit_zero (S := S8000x64) zero2, View.ld_unit_zero (S := S192x128) zero2,
    View.ld_unit_zero (S := S128) zero1, View.ld_unit_zero (S := S128x64) zero2, View.ld_unit_zero (S := S64) zero1]
  funext j
  obtain ⟨n, q, rfl⟩ : ∃ (n : Fin 8000) (q : Fin 64), j = ix2 n q := ⟨j 0, j 1, eq_ix2 j⟩
  show k0_pay1 (iblk0 V c 0 t) (iblk0 V c 1 t) (iblk0 V c 2 t) (iblk0 V c 3 t) (iblk0 V c 4 t) (iblk0 V c 5 t)
      (iblk0 V c 6 t) (ix2 n q) = edgeOf V c (((cfg0.win 7).blk t).view.emb (ix2 n q))
  rw [emb_out t n q]
  refine (payload_apply (iblk0 V c 0 t) (iblk0 V c 1 t) (iblk0 V c 2 t) (iblk0 V c 3 t) (iblk0 V c 4 t) (iblk0 V c 5 t)
    (iblk0 V c 6 t) n q).trans ?_
  rw [whole3 V c t, whole4 V c t, whole5 V c t, whole6 V c t,
    show (fun k => iblk0 V c 0 t (ix2 n k)) = fun k => V c main_v11 (ix2 (rowAt t n) k) from funext (row0 V c t n),
    show (fun k => iblk0 V c 1 t (ix2 n k)) = fun k => V c main_v18 (ix2 (rowAt t n) k) from funext (row1 V c t n),
    show (fun k => iblk0 V c 2 t (ix2 n k)) = fun k => V c main_arg2 (ix2 (rowAt t n) k) from funext (row2 V c t n)]
  rfl

/-- Every row of the result lies in the block of the point `row / 8000`. -/
theorem covered (i : S640000x64.Idx) : ∃ t : Fin cfg0.N, (cfg0.win 7).flush t = true ∧ i ∈ ((cfg0.win 7).blk t).view.set := by
  have hi0 : (i 0).val < 640000 := (i 0).isLt
  have hi1 : (i 1).val < 64 := (i 1).isLt
  let t : Fin cfg0.N := ⟨(i 0).val / 8000, by show (i 0).val / 8000 < 80; omega⟩
  obtain ⟨-, -, -, -, -, -, -, -, -, -, -, -, e0, e1⟩ := idx_facts t
  have ht : t.val = (i 0).val / 8000 := rfl
  refine ⟨t, flush0_7 t, ?_⟩
  show i ∈ ((View.whole main_v19).slice (win0_7.rect t)).set
  rw [View.set_slice_whole, Rect.mem_set_unit]
  intro a
  match a with
  | ⟨0, _⟩ => show win0_7.index t (0 : Fin 2) * 8000 ≤ (i 0).val ∧ (i 0).val < win0_7.index t (0 : Fin 2) * 8000 + 8000; omega
  | ⟨1, _⟩ => show win0_7.index t (1 : Fin 2) * 64 ≤ (i 1).val ∧ (i 1).val < win0_7.index t (1 : Fin 2) * 64 + 64; omega

/-- After the call the result array is `edgeOf` of the arrays the call found. -/
theorem final (c : Dev nD) : (dat0 V c).arrAt 7 cfg0.N = edgeOf V c :=
  (dat0 V c).arrAt_eq_of_cover 7 (edgeOf V c) (fun t _ => flushed_eq V c t) covered

end Cert.KernelIdeal.EdgeCall

end
-- ==== Proof.NodeCall.lean ====
/-
  The second call: the node perceptron over the grid of 5 row blocks.

  Point `t` of the grid loads rows `4000·t … 4000·t + 3999` of the node features, of the aggregated messages and of the
  node attributes, the whole weight and bias arrays, and stores the perceptron's value on those rows into the same rows
  of the result.  The blocks tile the result, so after the call the result array is the perceptron applied row by row
  to the arrays the call found.
-/
import proofs.«106031_j7103875907705_1_alg».proof.Proof.Gen.KernelIdeal.Frame
import proofs.«106031_j7103875907705_1_alg».proof.Proof.LibMlpRows

set_option maxRecDepth 16384

noncomputable section

namespace Cert.KernelIdeal.NodeCall

open Cert.KernelIdeal Cert.KernelIdeal.Gen
open Idealize.ShloMosaic Idealize.ShloMosaic.TcCoe Idealize.SL.Sem Idealize.ShloMosaic.ValueIdx
open Idealize.ShloMosaic.Pipeline (Dat)
open RowOps MessagePassing

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The value the body stores, at `(n, q)` of the block: the perceptron on row `n` of the three loaded blocks. -/
theorem payload_apply (x0 x1 : Vec Ideal S4000x64 .bf16) (x2 : Vec Ideal S4000x64 .bf16) (x3 : Vec Ideal S192x128 .f32)
    (x4 : Vec Ideal S128 .f32) (x5 : Vec Ideal S128x64 .f32) (x6 : Vec Ideal S64 .f32) (n : Fin 4000) (q : Fin 64) :
    k1_pay1 x0 x1 x2 x3 x4 x5 x6 (ix2 n q)
      = mlpRow x3 x4 x5 x6 (cat3 192 (fun k => x0 (ix2 n k)) (fun k => x1 (ix2 n k)) (fun k => x2 (ix2 n k))) q := by
  unfold k1_pay1
  refine (mlp_kernel_apply dot_S4000x192_S192x128_S4000x128_1_0_0_1_n_n rfl dot_S4000x128_S128x64_S4000x64_1_0_0_1_n_n rfl
    _ x3 x4 x5 x6 _ _ _ _ _ _ _ n q).trans ?_
  refine congrArg (fun u => mlpRow x3 x4 x5 x6 u q) (funext fun k => ?_)
  refine (cat3_apply _ _ _ concatenates_S4000x64_S4000x64_S4000x64_S4000x192_d1 rfl n k).trans ?_
  rw [shapeCast_self, shapeCast_self, shapeCast_self]

/-- The same at any index of the block. -/
theorem payload_at (x0 x1 : Vec Ideal S4000x64 .bf16) (x2 : Vec Ideal S4000x64 .bf16) (x3 : Vec Ideal S192x128 .f32)
    (x4 : Vec Ideal S128 .f32) (x5 : Vec Ideal S128x64 .f32) (x6 : Vec Ideal S64 .f32) (j : S4000x64.Idx) :
    k1_pay1 x0 x1 x2 x3 x4 x5 x6 j
      = mlpRow x3 x4 x5 x6 (cat3 192 (fun k => x0 (ix2 (j 0) k)) (fun k => x1 (ix2 (j 0) k)) (fun k => x2 (ix2 (j 0) k))) (j 1) := by
  obtain ⟨n, q, rfl⟩ : ∃ (n : Fin 4000) (q : Fin 64), j = ix2 n q := ⟨j 0, j 1, eq_ix2 j⟩
  exact payload_apply x0 x1 x2 x3 x4 x5 x6 n q

/-- The result array the call leaves, as a function of the arrays it finds: row by row the perceptron of the node
    features, the aggregated messages and the node attributes. -/
abbrev nodeOf (c : Dev nD) : S20000x64.Idx → EReal :=
  mlpRows (K := 192) (V c main_v4) (V c main_v23) (V c main_v24) (V c main_arg8) (V c main_arg9) (V c main_arg10) (V c main_arg11)

/-- The printed index maps over the grid: a row window's block index is the point, a whole window's is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Row `n` of point `t`'s block is row `4000·t + n` of the array. -/
def rowAt (t : Fin cfg1.N) (n : Fin 4000) : Fin 20000 :=
  ⟨t.val * 4000 + n.val, by have h : t.val < 5 := t.isLt; have := n.isLt; omega⟩

theorem emb_out (t : Fin cfg1.N) (n : Fin 4000) (q : Fin 64) :
    ((cfg1.win 7).blk t).view.emb (ix2 n q) = ix2 (rowAt t n) q := by
  obtain ⟨-, -, -, -, -, -, -, -, -, -, -, -, e0, e1⟩ := idx_facts t
  funext a; apply Fin.ext
  match a with
  | ⟨0, _⟩ => show win1_7.index t (0 : Fin 2) * 4000 + 1 * n.val = t.val * 4000 + n.val; omega
  | ⟨1, _⟩ => show win1_7.index t (1 : Fin 2) * 64 + 1 * q.val = q.val; omega

theorem row0 (c : Dev nD) (t : Fin cfg1.N) (n : Fin 4000) (k : Fin 64) :
    iblk1 V c 0 t (ix2 n k) = V c main_v4 (ix2 (rowAt t n) k) := by
  obtain ⟨e0, e1, -⟩ := idx_facts t
  show V c main_v4 (((cfg1.win 0).blk t).view.emb (ix2 n k)) = _
  refine congrArg (V c main_v4) (funext fun a => Fin.ext ?_)
  match a with
  | ⟨0, _⟩ => show win1_0.index t (0 : Fin 2) * 4000 + 1 * n.val = t.val * 4000 + n.val; omega
  | ⟨1, _⟩ => show win1_0.index t (1 : Fin 2) * 64 + 1 * k.val = k.val; omega

theorem row1 (c : Dev nD) (t : Fin cfg1.N) (n : Fin 4000) (k : Fin 64) :
    iblk1 V c 1 t (ix2 n k) = V c main_v23 (ix2 (rowAt t n) k) := by
  obtain ⟨-, -, e0, e1, -⟩ := idx_facts t
  show V c main_v23 (((cfg1.win 1).blk t).view.emb (ix2 n k)) = _
  refine congrArg (V c main_v23) (funext fun a => Fin.ext ?_)
  match a with
  | ⟨0, _⟩ => show win1_1.index t (0 : Fin 2) * 4000 + 1 * n.val = t.val * 4000 + n.val; omega
  | ⟨1, _⟩ => show win1_1.index t (1 : Fin 2) * 64 + 1 * k.val = k.val; omega

theorem row2 (c : Dev nD) (t : Fin cfg1.N) (n : Fin 4000) (k : Fin 64) :
    iblk1 V c 2 t (ix2 n k) = V c main_v24 (ix2 (rowAt t n) k) := by
  obtain ⟨-, -, -, -, e0, e1, -⟩ := idx_facts t
  show V c main_v24 (((cfg1.win 2).blk t).view.emb (ix2 n k)) = _
  refine congrArg (V c main_v24) (funext fun a => Fin.ext ?_)
  match a with
  | ⟨0, _⟩ => show win1_2.index t (0 : Fin 2) * 4000 + 1 * n.val = t.val * 4000 + n.val; omega
  | ⟨1, _⟩ => show win1_2.index t (1 : Fin 2) * 64 + 1 * k.val = k.val; omega

/-- The weight and bias windows are whole arrays at every point. -/
theorem whole3 (c : Dev nD) (t : Fin cfg1.N) : iblk1 V c 3 t = V c main_arg8 := by
  obtain ⟨-, -, -, -, -, -, e0, e1, -⟩ := idx_facts t
  funext y
  show V c main_arg8 (((cfg1.win 3).blk t).view.emb y) = V c main_arg8 y
  refine congrArg (V c main_arg8) (funext fun a => Fin.ext ?_)
  match a with
  | ⟨0, _⟩ => show win1_3.index t (0 : Fin 2) * 192 + 1 * (y 0).val = (y 0).val; omega
  | ⟨1, _⟩ => show win1_3.index t (1 : Fin 2) * 128 + 1 * (y 1).val = (y 1).val; omega

theorem whole4 (c : Dev nD) (t : Fin cfg1.N) : iblk1 V c 4 t = V c main_arg9 := by
  obtain ⟨-, -, -, -, -, -, -, -, e0, -⟩ := idx_facts t
  funext y
  show V c main_arg9 (((cfg1.win 4).blk t).view.emb y) = V c main_arg9 y
  refine congrArg (V c main_arg9) (funext fun a => Fin.ext ?_)
  match a with
  | ⟨0, _⟩ => show win1_4.index t (0 : Fin 1) * 128 + 1 * (y 0).val = (y 0).val; omega

theorem whole5 (c : Dev nD) (t : Fin cfg1.N) : iblk1 V c 5 t = V c main_arg10 := by
  obtain ⟨-, -, -, -, -, -, -, -, -, e0, e1, -⟩ := idx_facts t
  funext y
  show V c main_arg10 (((cfg1.win 5).blk t).view.emb y) = V c main_arg10 y
  refine congrArg (V c main_arg10) (funext fun a => Fin.ext ?_)
  match a with
  | ⟨0, _⟩ => show win1_5.index t (0 : Fin 2) * 128 + 1 * (y 0).val = (y 0).val; omega
  | ⟨1, _⟩ => show win1_5.index t (1 : Fin 2) * 64 + 1 * (y 1).val = (y 1).val; omega

theorem whole6 (c : Dev nD) (t : Fin cfg1.N) : iblk1 V c 6 t = V c main_arg11 := by
  obtain ⟨-, -, -, -, -, -, -, -, -, -, -, e0, -⟩ := idx_facts t
  funext y
  show V c main_arg11 (((cfg1.win 6).blk t).view.emb y) = V c main_arg11 y
  refine congrArg (V c main_arg11) (funext fun a => Fin.ext ?_)
  match a with
  | ⟨0, _⟩ => show win1_6.index t (0 : Fin 1) * 64 + 1 * (y 0).val = (y 0).val; omega

/-- What point `t` writes back is block `t` of `nodeOf`. -/
theorem flushed_eq (c : Dev nD) (t : Fin cfg1.N) :
    (dat1 V c).flushed 7 t = ((cfg1.win 7).blk t).view.read (Elt Ideal) (nodeOf V c) := by
  show (cfg1.win 7).cut (grid1.coords t) ((dat1 V c).after 7 t) = _
  rw [after1_7]
  unfold out1_7
  rw [View.canon_unit_zero zero2]
  simp only [View.ld_unit_zero (S := S4000x64) zero2, View.ld_unit_zero (S := S192x128) zero2,
    View.ld_unit_zero (S := S128) zero1, View.ld_unit_zero (S := S128x64) zero2, View.ld_unit_zero (S := S64) zero1]
  funext j
  obtain ⟨n, q, rfl⟩ : ∃ (n : Fin 4000) (q : Fin 64), j = ix2 n q := ⟨j 0, j 1, eq_ix2 j⟩
  show k1_pay1 (iblk1 V c 0 t) (iblk1 V c 1 t) (iblk1 V c 2 t) (iblk1 V c 3 t) (iblk1 V c 4 t) (iblk1 V c 5 t)
      (iblk1 V c 6 t) (ix2 n q) = nodeOf V c (((cfg1.win 7).blk t).view.emb (ix2 n q))
  rw [emb_out t n q]
  refine (payload_apply (iblk1 V c 0 t) (iblk1 V c 1 t) (iblk1 V c 2 t) (iblk1 V c 3 t) (iblk1 V c 4 t) (iblk1 V c 5 t)
    (iblk1 V c 6 t) n q).trans ?_
  rw [whole3 V c t, whole4 V c t, whole5 V c t, whole6 V c t,
    show (fun k => iblk1 V c 0 t (ix2 n k)) = fun k => V c main_v4 (ix2 (rowAt t n) k) from funext (row0 V c t n),
    show (fun k => iblk1 V c 1 t (ix2 n k)) = fun k => V c main_v23 (ix2 (rowAt t n) k) from funext (row1 V c t n),
    show (fun k => iblk1 V c 2 t (ix2 n k)) = fun k => V c main_v24 (ix2 (rowAt t n) k) from funext (row2 V c t n)]
  rfl

/-- Every row of the result lies in the block of the point `row / 4000`. -/
theorem covered (i : S20000x64.Idx) : ∃ t : Fin cfg1.N, (cfg1.win 7).flush t = true ∧ i ∈ ((cfg1.win 7).blk t).view.set := by
  have hi0 : (i 0).val < 20000 := (i 0).isLt
  have hi1 : (i 1).val < 64 := (i 1).isLt
  let t : Fin cfg1.N := ⟨(i 0).val / 4000, by show (i 0).val / 4000 < 5; omega⟩
  obtain ⟨-, -, -, -, -, -, -, -, -, -, -, -, e0, e1⟩ := idx_facts t
  have ht : t.val = (i 0).val / 4000 := rfl
  refine ⟨t, flush1_7 t, ?_⟩
  show i ∈ ((View.whole main_v25).slice (win1_7.rect t)).set
  rw [View.set_slice_whole, Rect.mem_set_unit]
  intro a
  match a with
  | ⟨0, _⟩ => show win1_7.index t (0 : Fin 2) * 4000 ≤ (i 0).val ∧ (i 0).val < win1_7.index t (0 : Fin 2) * 4000 + 4000; omega
  | ⟨1, _⟩ => show win1_7.index t (1 : Fin 2) * 64 ≤ (i 1).val ∧ (i 1).val < win1_7.index t (1 : Fin 2) * 64 + 64; omega

/-- After the call the result array is `nodeOf` of the arrays the call found. -/
theorem final (c : Dev nD) : (dat1 V c).arrAt 7 cfg1.N = nodeOf V c :=
  (dat1 V c).arrAt_eq_of_cover 7 (nodeOf V c) (fun t _ => flushed_eq V c t) covered

end Cert.KernelIdeal.NodeCall

end
-- ==== Proof.KernelValue.lean ====
/-
  The message-passing layer as the two-call program computes it.

  Before the first call the host cuts the edge list into its source and destination rows, wraps a negative entry once
  by the number of nodes, and gathers the node features' rows at both; the first call applies the edge perceptron to
  (source row ‖ destination row ‖ edge attributes).  Between the calls the host adds every edge's message into its
  destination node's row, starting from zero.  The second call applies the node perceptron to (node features ‖ summed
  messages ‖ node attributes).  The narrowing conversions on the way are the identity at the ideal values.
-/
import proofs.«106031_j7103875907705_1_alg».proof.Proof.Gen.KernelIdeal.Frame
import proofs.«106031_j7103875907705_1_alg».proof.Proof.Results
import proofs.«106031_j7103875907705_1_alg».proof.Proof.EdgeCall
import proofs.«106031_j7103875907705_1_alg».proof.Proof.NodeCall
import Idealize.ShloMosaic.Lib.StableHlo.Run

set_option maxRecDepth 16384

noncomputable section

namespace Cert.KernelIdeal.Layer

open Cert.KernelIdeal Cert.KernelIdeal.Gen
open Idealize.ShloMosaic Idealize.ShloMosaic.TcCoe Idealize.SL.Sem Idealize.ShloMosaic.ValueIdx Idealize.ShloMosaic.StableHlo
open RowOps MessagePassing

/-- Row `r` of the edge list as a column of start indices, a negative entry wrapped once by the number of nodes. -/
abbrev srcCol (e : (⟨S2x640000, .i32⟩ : BufTy).Contents (Elt Ideal)) : (⟨S640000x1, .i32⟩ : BufTy).Contents (Elt Ideal) :=
  broadcastInDim S640000x1 ![0] bcast_S640000_S640000x1_0
    (select (cmpi .slt (shapeCast S640000 (extractStridedSlice S1x640000 ![0, 0] e slices_S2x640000_S1x640000_0_0) shapeCasts_S1x640000_S640000) (broadcastInDim S640000 ![] bcast_S_S640000 (constantI S_ 32 0#32)))
      (addi (shapeCast S640000 (extractStridedSlice S1x640000 ![0, 0] e slices_S2x640000_S1x640000_0_0) shapeCasts_S1x640000_S640000) (broadcastInDim S640000 ![] bcast_S_S640000 (constantI S_ 32 20000#32)))
      (shapeCast S640000 (extractStridedSlice S1x640000 ![0, 0] e slices_S2x640000_S1x640000_0_0) shapeCasts_S1x640000_S640000))

abbrev dstCol (e : (⟨S2x640000, .i32⟩ : BufTy).Contents (Elt Ideal)) : (⟨S640000x1, .i32⟩ : BufTy).Contents (Elt Ideal) :=
  broadcastInDim S640000x1 ![0] bcast_S640000_S640000x1_0
    (select (cmpi .slt (shapeCast S640000 (extractStridedSlice S1x640000 ![1, 0] e slices_S2x640000_S1x640000_1_0) shapeCasts_S1x640000_S640000) (broadcastInDim S640000 ![] bcast_S_S640000 (constantI S_ 32 0#32)))
      (addi (shapeCast S640000 (extractStridedSlice S1x640000 ![1, 0] e slices_S2x640000_S1x640000_1_0) shapeCasts_S1x640000_S640000) (broadcastInDim S640000 ![] bcast_S_S640000 (constantI S_ 32 20000#32)))
      (shapeCast S640000 (extractStridedSlice S1x640000 ![1, 0] e slices_S2x640000_S1x640000_1_0) shapeCasts_S1x640000_S640000))

/-- The destination row as the scatter takes it: unwrapped. -/
abbrev dstRaw (e : (⟨S2x640000, .i32⟩ : BufTy).Contents (Elt Ideal)) : (⟨S640000x1, .i32⟩ : BufTy).Contents (Elt Ideal) :=
  broadcastInDim S640000x1 ![0] bcast_S640000_S640000x1_0
    (shapeCast S640000 (extractStridedSlice S1x640000 ![1, 0] e slices_S2x640000_S1x640000_1_0) shapeCasts_S1x640000_S640000)

/-- The node features' rows at the edges' sources, and at their destinations. -/
abbrev gatherSrc (x : (⟨S20000x64, .f32⟩ : BufTy).Contents (Elt Ideal)) (e : (⟨S2x640000, .i32⟩ : BufTy).Contents (Elt Ideal)) :
    (⟨S640000x64, .bf16⟩ : BufTy).Contents (Elt Ideal) :=
  Host.gather gather_S20000x64_S640000x1_S640000x64_1_0_n_n_0_1_164 (truncf (F := Ideal) .bf16 x bitsLt_bf16_f32) (srcCol e)
abbrev gatherDst (x : (⟨S20000x64, .f32⟩ : BufTy).Contents (Elt Ideal)) (e : (⟨S2x640000, .i32⟩ : BufTy).Contents (Elt Ideal)) :
    (⟨S640000x64, .bf16⟩ : BufTy).Contents (Elt Ideal) :=
  Host.gather gather_S20000x64_S640000x1_S640000x64_1_0_n_n_0_1_164 (truncf (F := Ideal) .bf16 x bitsLt_bf16_f32) (dstCol e)

/-- The messages summed into their destination nodes' rows, from zero. -/
abbrev summed (e : (⟨S2x640000, .i32⟩ : BufTy).Contents (Elt Ideal)) (msg : (⟨S640000x64, .f32⟩ : BufTy).Contents (Elt Ideal)) :
    (⟨S20000x64, .bf16⟩ : BufTy).Contents (Elt Ideal) :=
  truncf (F := Ideal) .bf16 (Host.scatterAdd (F := Ideal) scatter_S20000x64_S640000x1_S640000x64_1_0_0_1
    (broadcastInDim S20000x64 ![] bcast_S_S20000x64 (constant (F := Ideal) S_ .f32 0x00000000#32)) (dstRaw e) msg) bitsLt_bf16_f32

variable (m : (ℓ : Loc nD τ sig) → Buf (Elt Ideal) ℓ) (ρ : Dev nD → PrngReg)

/-! ## What the first call finds -/

theorem entry0_v11 (c : Dev nD) : V1 m ρ c main_v11
    = gatherSrc (m ((c : Thread nD τ).loc main_arg0)) (m ((c : Thread nD τ).loc main_arg1)) := by
  show StableHlo.after hostOps0 (W0 m ρ c) (Proc.devRef .tc main_v11) = _
  after_results
  rfl

theorem entry0_v18 (c : Dev nD) : V1 m ρ c main_v18
    = gatherDst (m ((c : Thread nD τ).loc main_arg0)) (m ((c : Thread nD τ).loc main_arg1)) := by
  show StableHlo.after hostOps0 (W0 m ρ c) (Proc.devRef .tc main_v18) = _
  after_results
  rfl

theorem entry0_arg2 (c : Dev nD) : V1 m ρ c main_arg2 = m ((c : Thread nD τ).loc main_arg2) := by
  show StableHlo.after hostOps0 (W0 m ρ c) (Proc.devRef .tc main_arg2) = _
  after_results

theorem entry0_arg4 (c : Dev nD) : V1 m ρ c main_arg4 = m ((c : Thread nD τ).loc main_arg4) := by
  show StableHlo.after hostOps0 (W0 m ρ c) (Proc.devRef .tc main_arg4) = _
  after_results
theorem entry0_arg5 (c : Dev nD) : V1 m ρ c main_arg5 = m ((c : Thread nD τ).loc main_arg5) := by
  show StableHlo.after hostOps0 (W0 m ρ c) (Proc.devRef .tc main_arg5) = _
  after_results
theorem entry0_arg6 (c : Dev nD) : V1 m ρ c main_arg6 = m ((c : Thread nD τ).loc main_arg6) := by
  show StableHlo.after hostOps0 (W0 m ρ c) (Proc.devRef .tc main_arg6) = _
  after_results
theorem entry0_arg7 (c : Dev nD) : V1 m ρ c main_arg7 = m ((c : Thread nD τ).loc main_arg7) := by
  show StableHlo.after hostOps0 (W0 m ρ c) (Proc.devRef .tc main_arg7) = _
  after_results
theorem entry0_arg3 (c : Dev nD) : V1 m ρ c main_arg3 = m ((c : Thread nD τ).loc main_arg3) := by
  show StableHlo.after hostOps0 (W0 m ρ c) (Proc.devRef .tc main_arg3) = _
  after_results
theorem entry0_arg8 (c : Dev nD) : V1 m ρ c main_arg8 = m ((c : Thread nD τ).loc main_arg8) := by
  show StableHlo.after hostOps0 (W0 m ρ c) (Proc.devRef .tc main_arg8) = _
  after_results
theorem entry0_arg9 (c : Dev nD) : V1 m ρ c main_arg9 = m ((c : Thread nD τ).loc main_arg9) := by
  show StableHlo.after hostOps0 (W0 m ρ c) (Proc.devRef .tc main_arg9) = _
  after_results
theorem entry0_arg10 (c : Dev nD) : V1 m ρ c main_arg10 = m ((c : Thread nD τ).loc main_arg10) := by
  show StableHlo.after hostOps0 (W0 m ρ c) (Proc.devRef .tc main_arg10) = _
  after_results
theorem entry0_arg11 (c : Dev nD) : V1 m ρ c main_arg11 = m ((c : Thread nD τ).loc main_arg11) := by
  show StableHlo.after hostOps0 (W0 m ρ c) (Proc.devRef .tc main_arg11) = _
  after_results
theorem entry0_v4 (c : Dev nD) : V1 m ρ c main_v4 = truncf (F := Ideal) .bf16 (m ((c : Thread nD τ).loc main_arg0)) bitsLt_bf16_f32 := by
  show StableHlo.after hostOps0 (W0 m ρ c) (Proc.devRef .tc main_v4) = _
  after_results
theorem entry0_v3 (c : Dev nD) : V1 m ρ c main_v3
    = shapeCast S640000 (extractStridedSlice S1x640000 ![1, 0] (m ((c : Thread nD τ).loc main_arg1)) slices_S2x640000_S1x640000_1_0) shapeCasts_S1x640000_S640000 := by
  show StableHlo.after hostOps0 (W0 m ρ c) (Proc.devRef .tc main_v3) = _
  after_results
  rfl

/-! ## The edge result -/

/-- The edge messages: row by row the edge perceptron of the source row, the destination row and the edge attributes. -/
abbrev edgeResult (x : (⟨S20000x64, .f32⟩ : BufTy).Contents (Elt Ideal)) (e : (⟨S2x640000, .i32⟩ : BufTy).Contents (Elt Ideal))
    (ea : (⟨S640000x64, .f32⟩ : BufTy).Contents (Elt Ideal)) (W1 : (⟨S192x128, .f32⟩ : BufTy).Contents (Elt Ideal))
    (b1 : (⟨S128, .f32⟩ : BufTy).Contents (Elt Ideal)) (W2 : (⟨S128x64, .f32⟩ : BufTy).Contents (Elt Ideal))
    (b2 : (⟨S64, .f32⟩ : BufTy).Contents (Elt Ideal)) : (⟨S640000x64, .f32⟩ : BufTy).Contents (Elt Ideal) :=
  mlpRows (K := 192) (gatherSrc x e) (gatherDst x e) ea W1 b1 W2 b2

/-- The first call leaves the edge messages in its result array. -/
theorem exit0_v19 (c : Dev nD) : W2 m ρ c (Proc.devRef .tc main_v19)
    = edgeResult (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine ((W2_arr m ρ c 7).trans (EdgeCall.final (V1 m ρ) c)).trans ?_
  show mlpRows (K := 192) (V1 m ρ c main_v11) (V1 m ρ c main_v18) (V1 m ρ c main_arg2) (V1 m ρ c main_arg4) (V1 m ρ c main_arg5)
      (V1 m ρ c main_arg6) (V1 m ρ c main_arg7) = _
  rw [entry0_v11, entry0_v18, entry0_arg2, entry0_arg4, entry0_arg5, entry0_arg6, entry0_arg7]

/-! ## What the second call finds -/

theorem entry1_v4 (c : Dev nD) : V3 m ρ c main_v4 = truncf (F := Ideal) .bf16 (m ((c : Thread nD τ).loc main_arg0)) bitsLt_bf16_f32 := by
  show StableHlo.after hostOps1 (W2 m ρ c) (Proc.devRef .tc main_v4) = _
  after_results
  exact (W2_of_ne m ρ c main_v4 (by decide)).trans (entry0_v4 m ρ c)

theorem entry1_v24 (c : Dev nD) : V3 m ρ c main_v24 = truncf (F := Ideal) .bf16 (m ((c : Thread nD τ).loc main_arg3)) bitsLt_bf16_f32 := by
  show StableHlo.after hostOps1 (W2 m ρ c) (Proc.devRef .tc main_v24) = _
  after_results
  rw [(W2_of_ne m ρ c main_arg3 (by decide)).trans (entry0_arg3 m ρ c)]

theorem entry1_v23 (c : Dev nD) : V3 m ρ c main_v23
    = summed (m ((c : Thread nD τ).loc main_arg1)) (edgeResult (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  show StableHlo.after hostOps1 (W2 m ρ c) (Proc.devRef .tc main_v23) = _
  after_results
  rw [exit0_v19, (W2_of_ne m ρ c main_v3 (by decide)).trans (entry0_v3 m ρ c)]

theorem entry1_arg8 (c : Dev nD) : V3 m ρ c main_arg8 = m ((c : Thread nD τ).loc main_arg8) := by
  show StableHlo.after hostOps1 (W2 m ρ c) (Proc.devRef .tc main_arg8) = _
  after_results
  exact (W2_of_ne m ρ c main_arg8 (by decide)).trans (entry0_arg8 m ρ c)
theorem entry1_arg9 (c : Dev nD) : V3 m ρ c main_arg9 = m ((c : Thread nD τ).loc main_arg9) := by
  show StableHlo.after hostOps1 (W2 m ρ c) (Proc.devRef .tc main_arg9) = _
  after_results
  exact (W2_of_ne m ρ c main_arg9 (by decide)).trans (entry0_arg9 m ρ c)
theorem entry1_arg10 (c : Dev nD) : V3 m ρ c main_arg10 = m ((c : Thread nD τ).loc main_arg10) := by
  show StableHlo.after hostOps1 (W2 m ρ c) (Proc.devRef .tc main_arg10) = _
  after_results
  exact (W2_of_ne m ρ c main_arg10 (by decide)).trans (entry0_arg10 m ρ c)
theorem entry1_arg11 (c : Dev nD) : V3 m ρ c main_arg11 = m ((c : Thread nD τ).loc main_arg11) := by
  show StableHlo.after hostOps1 (W2 m ρ c) (Proc.devRef .tc main_arg11) = _
  after_results
  exact (W2_of_ne m ρ c main_arg11 (by decide)).trans (entry0_arg11 m ρ c)

/-! ## The two results -/

/-- The new node features: row by row the node perceptron of the node's features, its summed messages and its attributes. -/
abbrev nodeResult (x : (⟨S20000x64, .f32⟩ : BufTy).Contents (Elt Ideal)) (e : (⟨S2x640000, .i32⟩ : BufTy).Contents (Elt Ideal))
    (ea : (⟨S640000x64, .f32⟩ : BufTy).Contents (Elt Ideal)) (f : (⟨S20000x64, .f32⟩ : BufTy).Contents (Elt Ideal))
    (W1 : (⟨S192x128, .f32⟩ : BufTy).Contents (Elt Ideal)) (b1 : (⟨S128, .f32⟩ : BufTy).Contents (Elt Ideal))
    (W2 : (⟨S128x64, .f32⟩ : BufTy).Contents (Elt Ideal)) (b2 : (⟨S64, .f32⟩ : BufTy).Contents (Elt Ideal))
    (U1 : (⟨S192x128, .f32⟩ : BufTy).Contents (Elt Ideal)) (d1 : (⟨S128, .f32⟩ : BufTy).Contents (Elt Ideal))
    (U2 : (⟨S128x64, .f32⟩ : BufTy).Contents (Elt Ideal)) (d2 : (⟨S64, .f32⟩ : BufTy).Contents (Elt Ideal)) :
    (⟨S20000x64, .f32⟩ : BufTy).Contents (Elt Ideal) :=
  mlpRows (K := 192) (truncf (F := Ideal) .bf16 x bitsLt_bf16_f32) (summed e (edgeResult x e ea W1 b1 W2 b2))
    (truncf (F := Ideal) .bf16 f bitsLt_bf16_f32) U1 d1 U2 d2

theorem edge_eq (c : Dev nD) : W4 m ρ c (Proc.devRef .tc main_v19)
    = edgeResult (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W4_of_ne m ρ c main_v19 (by decide)).trans ?_
  show StableHlo.after hostOps1 (W2 m ρ c) (Proc.devRef .tc main_v19) = _
  after_results
  exact exit0_v19 m ρ c

theorem node_eq (c : Dev nD) : W4 m ρ c (Proc.devRef .tc main_v25)
    = nodeResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine ((W4_arr m ρ c 7).trans (NodeCall.final (V3 m ρ) c)).trans ?_
  show mlpRows (K := 192) (V3 m ρ c main_v4) (V3 m ρ c main_v23) (V3 m ρ c main_v24) (V3 m ρ c main_arg8) (V3 m ρ c main_arg9)
      (V3 m ρ c main_arg10) (V3 m ρ c main_arg11) = _
  rw [entry1_v4, entry1_v23, entry1_v24, entry1_arg8, entry1_arg9, entry1_arg10, entry1_arg11]

/-- The two-call program's run: the node result and the edge result as functions of the arguments, the arguments unchanged. -/
theorem run : θ_run defs (onTc (τ := τ) (main (F := Ideal))) ⟨m, fun _ => 0, ρ⟩ (fun r => ∀ c : Dev nD,
      r.2.mem ((c.tc : Thread nD τ).loc main_v25)
        = nodeResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_v19)
        = edgeResult (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (node_eq m ρ c), (h c).2.1.trans (edge_eq m ρ c), (h c).2.2⟩)
    (Cert.KernelIdeal.Results.run_results (F := Ideal) m ρ)

end Cert.KernelIdeal.Layer

end
-- ==== Proof.ReferenceValue.lean ====
/-
  The message-passing layer as the reference computes it.

  The reference cuts the edge list into its source and destination rows, wraps a negative entry once by the number of
  nodes, gathers the node features' rows at both, applies the edge perceptron to (source row ‖ destination row ‖ edge
  attributes), adds every edge's message into its destination node's row starting from zero, and applies the node
  perceptron to (node features ‖ summed messages ‖ node attributes).  Its run's term is that composition written out;
  each perceptron's term is read row by row.
-/
import proofs.«106031_j7103875907705_1_alg».proof.Proof.Gen.ReferenceIdeal.Run
import proofs.«106031_j7103875907705_1_alg».proof.Proof.LibMlpRows

set_option maxRecDepth 16384

noncomputable section

namespace Cert.ReferenceIdeal.Layer

open Cert.ReferenceIdeal Cert.ReferenceIdeal.Gen
open Idealize.ShloMosaic Idealize.ShloMosaic.TcCoe Idealize.SL.Sem Idealize.ShloMosaic.ValueIdx Idealize.ShloMosaic.StableHlo
open RowOps MessagePassing

/-- Row `r` of the edge list as a column of start indices, a negative entry wrapped once by the number of nodes. -/
abbrev srcCol (e : (⟨S2x640000, .i32⟩ : BufTy).Contents (Elt Ideal)) : (⟨S640000x1, .i32⟩ : BufTy).Contents (Elt Ideal) :=
  broadcastInDim S640000x1 ![0] bcast_S640000_S640000x1_0
    (select (cmpi .slt (shapeCast S640000 (extractStridedSlice S1x640000 ![0, 0] e slices_S2x640000_S1x640000_0_0) shapeCasts_S1x640000_S640000) (broadcastInDim S640000 ![] bcast_S_S640000 (constantI S_ 32 0#32)))
      (addi (shapeCast S640000 (extractStridedSlice S1x640000 ![0, 0] e slices_S2x640000_S1x640000_0_0) shapeCasts_S1x640000_S640000) (broadcastInDim S640000 ![] bcast_S_S640000 (constantI S_ 32 20000#32)))
      (shapeCast S640000 (extractStridedSlice S1x640000 ![0, 0] e slices_S2x640000_S1x640000_0_0) shapeCasts_S1x640000_S640000))

abbrev dstCol (e : (⟨S2x640000, .i32⟩ : BufTy).Contents (Elt Ideal)) : (⟨S640000x1, .i32⟩ : BufTy).Contents (Elt Ideal) :=
  broadcastInDim S640000x1 ![0] bcast_S640000_S640000x1_0
    (select (cmpi .slt (shapeCast S640000 (extractStridedSlice S1x640000 ![1, 0] e slices_S2x640000_S1x640000_1_0) shapeCasts_S1x640000_S640000) (broadcastInDim S640000 ![] bcast_S_S640000 (constantI S_ 32 0#32)))
      (addi (shapeCast S640000 (extractStridedSlice S1x640000 ![1, 0] e slices_S2x640000_S1x640000_1_0) shapeCasts_S1x640000_S640000) (broadcastInDim S640000 ![] bcast_S_S640000 (constantI S_ 32 20000#32)))
      (shapeCast S640000 (extractStridedSlice S1x640000 ![1, 0] e slices_S2x640000_S1x640000_1_0) shapeCasts_S1x640000_S640000))

/-- The destination row as the scatter takes it: unwrapped. -/
abbrev dstRaw (e : (⟨S2x640000, .i32⟩ : BufTy).Contents (Elt Ideal)) : (⟨S640000x1, .i32⟩ : BufTy).Contents (Elt Ideal) :=
  broadcastInDim S640000x1 ![0] bcast_S640000_S640000x1_0
    (shapeCast S640000 (extractStridedSlice S1x640000 ![1, 0] e slices_S2x640000_S1x640000_1_0) shapeCasts_S1x640000_S640000)

/-- The node features' rows at the edges' sources, and at their destinations. -/
abbrev gatherSrc (x : (⟨S20000x64, .f32⟩ : BufTy).Contents (Elt Ideal)) (e : (⟨S2x640000, .i32⟩ : BufTy).Contents (Elt Ideal)) :
    (⟨S640000x64, .f32⟩ : BufTy).Contents (Elt Ideal) :=
  Host.gather gather_S20000x64_S640000x1_S640000x64_1_0_n_n_0_1_164 x (srcCol e)
abbrev gatherDst (x : (⟨S20000x64, .f32⟩ : BufTy).Contents (Elt Ideal)) (e : (⟨S2x640000, .i32⟩ : BufTy).Contents (Elt Ideal)) :
    (⟨S640000x64, .f32⟩ : BufTy).Contents (Elt Ideal) :=
  Host.gather gather_S20000x64_S640000x1_S640000x64_1_0_n_n_0_1_164 x (dstCol e)

/-- The messages summed into their destination nodes' rows, from zero. -/
abbrev summed (e : (⟨S2x640000, .i32⟩ : BufTy).Contents (Elt Ideal)) (msg : (⟨S640000x64, .f32⟩ : BufTy).Contents (Elt Ideal)) :
    (⟨S20000x64, .f32⟩ : BufTy).Contents (Elt Ideal) :=
  Host.scatterAdd (F := Ideal) scatter_S20000x64_S640000x1_S640000x64_1_0_0_1
    (broadcastInDim S20000x64 ![] bcast_S_S20000x64 (constant (F := Ideal) S_ .f32 0x00000000#32)) (dstRaw e) msg

/-- The reference's run: the edge result is the edge perceptron of the gathered rows and the edge attributes, row by
    row; the node result the node perceptron of the node features, the summed messages and the node attributes. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40)
        = mlpRows (K := 192) (m ((c.tc : Thread nD τ).loc main_arg0))
            (summed (m ((c.tc : Thread nD τ).loc main_arg1))
              (mlpRows (K := 192) (gatherSrc (m ((c.tc : Thread nD τ).loc main_arg0)) (m ((c.tc : Thread nD τ).loc main_arg1)))
                (gatherDst (m ((c.tc : Thread nD τ).loc main_arg0)) (m ((c.tc : Thread nD τ).loc main_arg1)))
                (m ((c.tc : Thread nD τ).loc main_arg2)) (m ((c.tc : Thread nD τ).loc main_arg4)) (m ((c.tc : Thread nD τ).loc main_arg5))
                (m ((c.tc : Thread nD τ).loc main_arg6)) (m ((c.tc : Thread nD τ).loc main_arg7))))
            (m ((c.tc : Thread nD τ).loc main_arg3)) (m ((c.tc : Thread nD τ).loc main_arg8)) (m ((c.tc : Thread nD τ).loc main_arg9))
            (m ((c.tc : Thread nD τ).loc main_arg10)) (m ((c.tc : Thread nD τ).loc main_arg11))
      ∧ r.2.mem ((c.tc : Thread nD τ).loc main_v27)
        = mlpRows (K := 192) (gatherSrc (m ((c.tc : Thread nD τ).loc main_arg0)) (m ((c.tc : Thread nD τ).loc main_arg1)))
            (gatherDst (m ((c.tc : Thread nD τ).loc main_arg0)) (m ((c.tc : Thread nD τ).loc main_arg1)))
            (m ((c.tc : Thread nD τ).loc main_arg2)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ⟨(h c).1.trans ?_, (h c).2.1.trans ?_, (h c).2.2⟩)
    (Cert.ReferenceIdeal.Value.run (F := Ideal) m ρ)
  · refine (mlp_host_eq dot_S20000x192_S192x128_S20000x128_1_0_0_1_n_n rfl dot_S20000x128_S128x64_S20000x64_1_0_0_1_n_n rfl
      _ _ _ _ _ _ _ concatenates_S20000x64_S20000x64_S20000x64_S20000x192_d1 rfl _ _ _ _ _).trans ?_
    refine congrArg (fun X => mlpRows (K := 192) (m ((c.tc : Thread nD τ).loc main_arg0))
        (summed (m ((c.tc : Thread nD τ).loc main_arg1)) X)
        (m ((c.tc : Thread nD τ).loc main_arg3)) (m ((c.tc : Thread nD τ).loc main_arg8)) (m ((c.tc : Thread nD τ).loc main_arg9))
        (m ((c.tc : Thread nD τ).loc main_arg10)) (m ((c.tc : Thread nD τ).loc main_arg11))) ?_
    exact mlp_host_eq dot_S640000x192_S192x128_S640000x128_1_0_0_1_n_n rfl dot_S640000x128_S128x64_S640000x64_1_0_0_1_n_n rfl
      _ _ _ _ _ _ _ concatenates_S640000x64_S640000x64_S640000x64_S640000x192_d1 rfl _ _ _ _ _
  · exact mlp_host_eq dot_S640000x192_S192x128_S640000x128_1_0_0_1_n_n rfl dot_S640000x128_S128x64_S640000x64_1_0_0_1_n_n rfl
      _ _ _ _ _ _ _ concatenates_S640000x64_S640000x64_S640000x64_S640000x192_d1 rfl _ _ _ _ _

end Cert.ReferenceIdeal.Layer

end
-- ==== Proof.lean ====
/-
  One message-passing layer of a graph network: the two-call kernel program and the plain reference agree over the
  extended reals.

  Both programs gather the node features at the edges' endpoints, pass (source ‖ destination ‖ edge attributes) through a
  two-layer perceptron to get the edge messages, add each message into its destination node's row, and pass
  (node features ‖ summed messages ‖ node attributes) through a second two-layer perceptron.  The kernel program runs the
  two perceptrons as pipelined calls over row blocks, narrows its operands on the way, and spells each product as a matrix
  product into a zero accumulator; at the ideal values the narrowings are the identity and both spellings of a product
  are the same finite sum, so each program's results are one and the same function of the arguments
  (`Cert.KernelIdeal.Layer.run`, `Cert.ReferenceIdeal.Layer.run`).  The gathers and the summation are the same host
  operations on both sides and are compared as they stand.  No law used here needs the inputs to be finite.
-/
import proofs.«106031_j7103875907705_1_alg».proof.Defs
import proofs.«106031_j7103875907705_1_alg».proof.Proof.Gen.Kernel
import proofs.«106031_j7103875907705_1_alg».proof.Proof.Gen.Kernel.Skeleton
import proofs.«106031_j7103875907705_1_alg».proof.Proof.Gen.Kernel.Launch
import proofs.«106031_j7103875907705_1_alg».proof.Proof.Gen.Kernel.Points
import proofs.«106031_j7103875907705_1_alg».proof.Proof.Gen.Kernel.Frame
import proofs.«106031_j7103875907705_1_alg».proof.Proof.Gen.KernelIdeal
import proofs.«106031_j7103875907705_1_alg».proof.Proof.Gen.KernelIdeal.Skeleton
import proofs.«106031_j7103875907705_1_alg».proof.Proof.Gen.KernelIdeal.Launch
import proofs.«106031_j7103875907705_1_alg».proof.Proof.Gen.KernelIdeal.Points
import proofs.«106031_j7103875907705_1_alg».proof.Proof.Gen.KernelIdeal.Frame
import proofs.«106031_j7103875907705_1_alg».proof.Proof.Gen.ReferenceIdeal
import proofs.«106031_j7103875907705_1_alg».proof.Proof.Gen.Pre_finite_inputs
import proofs.«106031_j7103875907705_1_alg».proof.Proof.Gen.ReferenceIdeal.Run
import proofs.«106031_j7103875907705_1_alg».proof.Proof.KernelValue
import proofs.«106031_j7103875907705_1_alg».proof.Proof.ReferenceValue
import Idealize.ShloMosaic.Adequacy
import Idealize.ShloMosaic.Init

set_option maxRecDepth 16384

noncomputable section

namespace Cert.Proof

open Idealize.ShloMosaic Idealize.SL.Sem MessagePassing

/-! ## The host operations of the two programs are the same functions -/

/-- At the ideal values a narrowing conversion of an array is the array. -/
theorem truncf_ideal {s : Shape} {φ : FTy} (ψ : FTy) (v : FVec Ideal s φ) (h : ψ.bits < φ.bits) :
    truncf (F := Ideal) ψ v h = v := rfl

/-- A scatter-add depends only on its dimension record, its start array and its index column. -/
theorem scatterAdd_congr {s si u : Shape} {w : Nat} {φ : FTy} (d d' : ScatterDims s si u) (hd : d = d')
    (x x' : FVec Ideal s φ) (hx : x = x') (i i' : IVec si w) (hi : i = i') (upd : FVec Ideal u φ) :
    Host.scatterAdd (F := Ideal) d x i upd = Host.scatterAdd (F := Ideal) d' x' i' upd := by
  subst hd hx hi; rfl

/-- The gathered source rows: the kernel program narrows the features before gathering, which changes nothing. -/
theorem gatherSrc_agree (x : (⟨Cert.KernelIdeal.S20000x64, .f32⟩ : BufTy).Contents (Elt Ideal))
    (e : (⟨Cert.KernelIdeal.S2x640000, .i32⟩ : BufTy).Contents (Elt Ideal)) :
    Cert.KernelIdeal.Layer.gatherSrc x e = Cert.ReferenceIdeal.Layer.gatherSrc x e := rfl

theorem gatherDst_agree (x : (⟨Cert.KernelIdeal.S20000x64, .f32⟩ : BufTy).Contents (Elt Ideal))
    (e : (⟨Cert.KernelIdeal.S2x640000, .i32⟩ : BufTy).Contents (Elt Ideal)) :
    Cert.KernelIdeal.Layer.gatherDst x e = Cert.ReferenceIdeal.Layer.gatherDst x e := rfl

theorem scatterDims_agree : Cert.KernelIdeal.scatter_S20000x64_S640000x1_S640000x64_1_0_0_1
    = Cert.ReferenceIdeal.scatter_S20000x64_S640000x1_S640000x64_1_0_0_1 := rfl

theorem dstRaw_agree (e : (⟨Cert.KernelIdeal.S2x640000, .i32⟩ : BufTy).Contents (Elt Ideal)) :
    Cert.KernelIdeal.Layer.dstRaw e = Cert.ReferenceIdeal.Layer.dstRaw e := rfl

/-- The messages summed into their destination rows: the kernel program narrows the sums afterwards, which changes
    nothing; the summation itself is the same operation on the same operands and is never opened. -/
theorem summed_agree (e : (⟨Cert.KernelIdeal.S2x640000, .i32⟩ : BufTy).Contents (Elt Ideal))
    (msg : (⟨Cert.KernelIdeal.S640000x64, .f32⟩ : BufTy).Contents (Elt Ideal)) :
    Cert.KernelIdeal.Layer.summed e msg = Cert.ReferenceIdeal.Layer.summed e msg :=
  (truncf_ideal (φ := .f32) .bf16 _ _).trans (scatterAdd_congr _ _ scatterDims_agree _ _ rfl _ _ (dstRaw_agree e) msg)

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the same node result and the same edge result:
    each is the row-by-row perceptron of the same gathered, summed and argument arrays. -/
theorem algebraic : Cert.algebraic_KernelIdeal_ReferenceIdeal := by
  intro m ρ m' ρ' _ hagree
  refine ⟨_, _, Cert.KernelIdeal.Layer.run m ρ, ?_⟩
  refine (θ_run Cert.ReferenceIdeal.defs _ _).mono (fun r h c => ?_) (Cert.ReferenceIdeal.Layer.run m' ρ')
  obtain ⟨a0, a1, a2, a3, a4, a5, a6, a7, a8, a9, a10, a11⟩ := hagree c
  refine ⟨(h c).1.trans ?_, (h c).2.1.trans ?_, (h c).2.2⟩
  · rw [a0, a1, a2, a3, a4, a5, a6, a7, a8, a9, a10, a11]
    show _ = mlpRows (K := 192) (truncf (F := Ideal) .bf16 _ _) (Cert.KernelIdeal.Layer.summed _ (mlpRows (K := 192)
      (Cert.KernelIdeal.Layer.gatherSrc _ _) (Cert.KernelIdeal.Layer.gatherDst _ _) _ _ _ _ _)) (truncf (F := Ideal) .bf16 _ _) _ _ _ _
    rw [gatherSrc_agree, gatherDst_agree, summed_agree, truncf_ideal, truncf_ideal]
  · rw [a0, a1, a2, a4, a5, a6, a7]
    show _ = mlpRows (K := 192) (Cert.KernelIdeal.Layer.gatherSrc _ _) (Cert.KernelIdeal.Layer.gatherDst _ _) _ _ _ _ _
    rw [gatherSrc_agree, gatherDst_agree]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
